-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S100000x256 .f32) (main_arg1 : IVec S2x1600000 32) (main_arg2 : FVec F S1600000 .f32) (main_arg3 : FVec F S256x128 .f32) (main_arg4 : FVec F S128 .f32) (main_arg5 : FVec F S128x64 .f32) (main_arg6 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S100000x128 : Shape := ⟨2, ![100000, 128]⟩
abbrev S2000x256 : Shape := ⟨2, ![2000, 256]⟩
abbrev S2000x128 : Shape := ⟨2, ![2000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 49
  | .vmem => 20
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x128, .f32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x64, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x64, .f32⟩
  | .hbm, ⟨41, _⟩ => ⟨S1600000x64, .f32⟩
  | .hbm, ⟨42, _⟩ => ⟨S1600000x64, .f32⟩
  | .hbm, ⟨43, _⟩ => ⟨S_, .f32⟩
  | .hbm, ⟨44, _⟩ => ⟨S100000x64, .f32⟩
  | .hbm, ⟨45, _⟩ => ⟨S1600000x1, .i32⟩
  | .hbm, ⟨46, _⟩ => ⟨S100000x64, .f32⟩
  | .hbm, ⟨47, _⟩ => ⟨S1x64, .f32⟩
  | .hbm, ⟨48, _⟩ => ⟨S100000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x64, .f32⟩
  | .local _ .vmem, ⟨13, _⟩ => ⟨S2000x64, .f32⟩
  | .local _ .vmem, ⟨14, _⟩ => ⟨S2000x64, .f32⟩
  | .local _ .vmem, ⟨15, _⟩ => ⟨S2000x64, .f32⟩
  | .local _ .vmem, ⟨16, _⟩ => ⟨S2000x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c_1 : Ref sig .tc := ⟨.hbm, 32, rfl⟩
abbrev main_v22 : Ref sig .tc := ⟨.hbm, 33, rfl⟩
abbrev main_v23 : Ref sig .tc := ⟨.hbm, 34, rfl⟩
abbrev main_c_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  dot_S2000x256_S256x128_S2000x128_1_0_0_1_n_n_wf : DotDims.WF S2000x256 S256x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x64.size a ≤ S100000x64.size a
  hwx2_2 : ∀ i : grid2.Coords, EltTy.bits .f32 = 32 ∨ (Rect.block (s := S100000x64) S2000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S100000x64.size a
  hwx3_0 : ∀ i : grid3.Coords, EltTy.bits .f32 = 32 ∨ (Rect.block (s := S100000x64) S2000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x64.size a ≤ S100000x64.size a
  hwx3_2 : ∀ i : grid3.Coords, EltTy.bits .f32 = 32 ∨ (Rect.block (s := S100000x64) S2000x64.size (cc3_transform_2 i) (hinb3_2 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v19) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v20) S2000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v33) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v35) S2000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S1600000 : Shape := ⟨1, ![1600000]⟩
abbrev S256x128 : Shape := ⟨2, ![256, 128]⟩
abbrev S128 : Shape := ⟨1, ![128]⟩
abbrev S128x64 : Shape := ⟨2, ![128, 64]⟩
abbrev S64 : Shape := ⟨1, ![64]⟩
abbrev S100000x128 : Shape := ⟨2, ![100000, 128]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 58
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S1600000, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S100000x128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S1600000x1, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x128, .f32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S100000x128, .f32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x64, .f32⟩
  | .hbm, ⟨35, _⟩ => ⟨S1x1600000, .i32⟩
  | .hbm, ⟨36, _⟩ => ⟨S1600000, .i32⟩
  | .hbm, ⟨37, _⟩ => ⟨S1x1600000, .i32⟩
  | .hbm, ⟨38, _⟩ => ⟨S1600000, .i32⟩
  | .hbm, ⟨39, _⟩ => ⟨S1600000x1, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x64, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S100000x64, .f32⟩
  | .hbm, ⟨57, _⟩ => ⟨S100000x64, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_cst : Ref sig .tc := ⟨.hbm, 31, rfl⟩
abbrev main_call0_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_1 : Ref sig .tc := ⟨.hbm, 40, rfl⟩
abbrev main_v28 : Ref sig .tc := ⟨.hbm, 41, rfl⟩
abbrev main_v29 : Ref sig .tc := ⟨.hbm, 42, rfl⟩
abbrev main_c_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.FirstProduct.lean ====
/-
  The first dense product. The kernel's first launch walks the 50 row blocks of `x` (2000 rows each), multiplies each
  by the whole of `W1` on the matrix unit into a zero accumulator, and writes the block of the result back. At the ideal
  values the narrowing to bf16 is the identity and the matrix product is the plain sum over the 256 contracted
  columns, so row `r = 2000·t + p` of the result is `∑ k, x[r, k] · W1[k, q]`: block `t` of the reference's
  `dot_general` of the whole arrays. The 50 blocks tile the 100000 rows, hence the array the launch leaves IS that
  `dot_general`, whatever the region found in its buffers.
-/
import proofs.«129737_j3959959847143_1_alg».proof.Proof.Gen.KernelIdeal.Frame
import proofs.«129737_j3959959847143_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.FirstProduct

open Cert.KernelIdeal Cert.KernelIdeal.Gen Idealize.ShloMosaic Idealize.ShloMosaic.TcCoe Idealize.SL.Sem
open Idealize.ShloMosaic.Pipeline (Dat)

/-- The matrix unit's dimension record of the first launch. -/
abbrev D := dot_S2000x256_S256x128_S2000x128_1_0_0_1_n_n

/-- Row axis of the left operand: the output's row. -/
theorem lhs_0 (j : S2000x128.Idx) (q : D.contr.Idx) : (D.lhsIdx j q 0).val = (j 0).val := by
  unfold DotDims.lhsIdx
  rw [dif_neg (show ¬(0 : Fin S2000x256.rank) ∈ D.lhsBatch by decide), dif_pos (show (0 : Fin S2000x256.rank) ∈ D.lhsNonContracting by decide)]
  rfl
/-- Column axis of the left operand: the contracted index. -/
theorem lhs_1 (j : S2000x128.Idx) (q : D.contr.Idx) : (D.lhsIdx j q 1).val = (q ⟨0, by decide⟩).val :=
  D.lhsIdx_val_of_single rfl j q
/-- Row axis of the right operand: the contracted index. -/
theorem rhs_0 (j : S2000x128.Idx) (q : D.contr.Idx) : (D.rhsIdx j q 0).val = (q ⟨0, by decide⟩).val :=
  D.rhsIdx_val_of_single rfl j q
/-- Column axis of the right operand: the output's column. -/
theorem rhs_1 (j : S2000x128.Idx) (q : D.contr.Idx) : (D.rhsIdx j q 1).val = (j 1).val := by
  unfold DotDims.rhsIdx
  rw [dif_neg (show ¬(1 : Fin S256x128.rank) ∈ D.rhsBatch by decide), dif_pos (show (1 : Fin S256x128.rank) ∈ D.rhsNonContracting by decide)]
  rfl

/-- Entry `(row of j, k)` of a block of `x`. -/
abbrev xAt (j : S2000x128.Idx) (k : Fin 256) : S2000x256.Idx := fun a => match a with
  | ⟨0, _⟩ => ⟨(j 0).val, (j 0).isLt⟩
  | ⟨1, _⟩ => ⟨k.val, k.isLt⟩
/-- Entry `(k, column of j)` of `W1`. -/
abbrev wAt (j : S2000x128.Idx) (k : Fin 256) : S256x128.Idx := fun a => match a with
  | ⟨0, _⟩ => ⟨k.val, k.isLt⟩
  | ⟨1, _⟩ => ⟨(j 1).val, (j 1).isLt⟩

/-- What the body stores, entry by entry, at the ideal values: the row of the loaded `x` block against the column of
    `W1`, summed over the 256 contracted positions. -/
theorem stored_apply (x : Vec Ideal S2000x256 .f32) (w : Vec Ideal S256x128 .f32) (j : S2000x128.Idx) :
    k0_pay1 (F := Ideal) x w j = ∑ k : Fin 256, x (xAt j k) * w (wAt j k) := by
  unfold k0_pay1
  simp only [matmul]
  rw [Ideal.matmul_constant_zero_apply, ← Equiv.sum_comp (ValueIdx.contrEquiv1 D 256 rfl rfl).symm]
  refine Finset.sum_congr rfl fun k _ => ?_
  have hk := ValueIdx.contrEquiv1_symm_val D 256 rfl rfl k
  have el : D.lhsIdx j ((ValueIdx.contrEquiv1 D 256 rfl rfl).symm k) = xAt j k := funext fun a => Fin.ext (by
    match a with
    | ⟨0, _⟩ => exact lhs_0 _ _
    | ⟨1, _⟩ => exact (lhs_1 _ _).trans hk)
  have er : D.rhsIdx j ((ValueIdx.contrEquiv1 D 256 rfl rfl).symm k) = wAt j k := funext fun a => Fin.ext (by
    match a with
    | ⟨0, _⟩ => exact (rhs_0 _ _).trans hk
    | ⟨1, _⟩ => exact rhs_1 _ _)
  rw [el, er]
  rfl

/-! ## From the blocks to the array -/

variable (V : (c : Dev nD) → (b : Ref sig .tc) → Buf (Elt Ideal) ((c : Thread nD τ).loc b))

/-- The `x` array and the `W1` array as the region finds them, at their literal types. -/
abbrev xArr (c : Dev nD) : Vec Ideal S100000x256 .f32 := V c main_arg0
abbrev wArr (c : Dev nD) : Vec Ideal S256x128 .f32 := V c main_arg3

theorem zero_offsets : (![0, 0] : Fin 2 → Nat) = fun _ => 0 := funext fun a => by fin_cases a <;> rfl

/-- The launch's index maps over its 50 points: the `x` window and the result window sit on the same row block, the
    `x` window spans all 256 columns, and the `W1` window is the whole of `W1`. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- WHAT POINT `t` WRITES BACK is block `t` of the reference's product of the two arrays the region finds. -/
theorem written_back (c : Dev nD) (t : Fin cfg0.N) :
    (dat0 V c).flushed 2 t = ((cfg0.win 2).blk t).view.read (Elt Ideal)
      (Cert.ReferenceIdeal.Read.val_main_v0 (F := Ideal) (V c main_arg0) (V c main_arg3)) := by
  show (cfg0.win 2).cut (grid0.coords t) ((dat0 V c).after 2 t) = _
  rw [after0_2]
  unfold out0_2
  rw [View.canon_unit_zero zero_offsets]
  simp only [View.ld_unit_zero (S := S2000x256) zero_offsets, View.ld_unit_zero (S := S256x128) zero_offsets]
  obtain ⟨e0, e1, e2, e3, e4, e5⟩ := block_indices t
  funext j
  show k0_pay1 (F := Ideal) (iblk0 V c 0 t) (iblk0 V c 1 t) j
    = Cert.ReferenceIdeal.Read.val_main_v0 (F := Ideal) (V c main_arg0) (V c main_arg3) (((cfg0.win 2).blk t).view.emb j)
  refine (stored_apply (iblk0 V c 0 t) (iblk0 V c 1 t) j).trans ?_
  refine Eq.trans ?_ (Cert.ReferenceIdeal.Read.val_main_v0_apply (V c main_arg0) (V c main_arg3) (((cfg0.win 2).blk t).view.emb j)).symm
  refine Finset.sum_congr rfl fun k _ => ?_
  have hx : ((cfg0.win 0).blk t).view.emb (xAt j k) = Cert.ReferenceIdeal.Read.lidx_main_v0 (((cfg0.win 2).blk t).view.emb j) k := by
    funext a; apply Fin.ext
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 256 + 1 * k.val = k.val; omega
  have hw : ((cfg0.win 1).blk t).view.emb (wAt j k) = Cert.ReferenceIdeal.Read.ridx_main_v0 (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  show xArr V c (((cfg0.win 0).blk t).view.emb (xAt j k)) * wArr V c (((cfg0.win 1).blk t).view.emb (wAt j k)) = _
  rw [hx, hw]

/-- An index of the result array lies in point `t`'s block iff each coordinate is in the block's range. -/
theorem in_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v4).slice (win0_2.rect t)).set ↔ _
  rw [View.set_slice_whole, Rect.mem_set_unit]
  exact Iff.rfl

/-- Row `r` of the result is written by point `r / 2000`. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨e0, e1, e2, e3, e4, e5⟩ := block_indices t
  have e5' : win0_2.index t (0 : Fin 2) = (i 0).val / 2000 := e5
  refine ⟨t, flush0_2 t, ?_⟩
  rw [in_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- THE ARRAY the first launch leaves: the reference's `x · W1` of the arrays it found. -/
theorem result (c : Dev nD) : (dat0 V c).arrAt 2 cfg0.N
    = Cert.ReferenceIdeal.Read.val_main_v0 (F := Ideal) (V c main_arg0) (V c main_arg3) :=
  (dat0 V c).arrAt_eq_of_cover 2 _ (fun t _ => written_back V c t) covered

end Cert.KernelIdeal.FirstProduct

end
-- ==== Proof.HiddenLayer.lean ====
/-
  The first layer's bias and rectifier. The kernel's second launch walks the 50 row blocks of the aggregated messages
  (2000 rows each), adds the bias row `b1` — staged as a [1,128] array — to every row and clamps below at zero. Entry
  `(r, q)` of the result is `max (H[r, q] + b1[q]) 0`, which is how the reference spells it on the whole array: the
  bias broadcast along the rows, the sum, the maximum with a zero splat. The 50 blocks tile the 100000 rows.
-/
import proofs.«129737_j3959959847143_1_alg».proof.Proof.Gen.KernelIdeal.Frame
import proofs.«129737_j3959959847143_1_alg».proof.Proof.Gen.ReferenceIdeal.Read
import Idealize.ShloMosaic.Lib.Pipeline.Value
import Idealize.ShloMosaic.Lib.ValueIdx

set_option maxRecDepth 16384

noncomputable section

namespace Cert.KernelIdeal.HiddenLayer

open Cert.KernelIdeal Cert.KernelIdeal.Gen Idealize.ShloMosaic Idealize.ShloMosaic.TcCoe Idealize.SL.Sem
open Idealize.ShloMosaic.Pipeline (Dat)

/-- The bias row's entry under column `q` of a block entry `(p, q)`. -/
abbrev biasAt (j : S2000x128.Idx) : S1x128.Idx := fun a => match a with
  | ⟨0, _⟩ => ⟨0, Nat.one_pos⟩
  | ⟨1, _⟩ => ⟨(j 1).val, (j 1).isLt⟩

/-- What the body stores, entry by entry, at the ideal values. -/
theorem stored_apply (x : Vec Ideal S2000x128 .f32) (brow : Vec Ideal S1x128 .f32) (j : S2000x128.Idx) :
    k1_pay1 (F := Ideal) x brow j = max (x j + brow (biasAt j)) (Ideal.ofBits .f32 0x00000000#32) := by
  unfold k1_pay1
  simp only [shapeCast_self]
  show max (x j + broadcastTo S2000x128 brow broadcasts_S1x128_S2000x128 j) _ = _
  rw [broadcastTo_apply brow broadcasts_S1x128_S2000x128 j (biasAt j) (fun a => match a with
    | ⟨0, _⟩ => by show 0 = if (1 : Nat) = 1 then 0 else _; rw [if_pos rfl]
    | ⟨1, _⟩ => by show (j 1).val = if (128 : Nat) = 1 then 0 else (j 1).val; rw [if_neg (by decide)])]
  rfl

/-- The layer on whole arrays, as the reference spells it: the bias broadcast along the rows, the sum, the maximum with
    the zero splat. -/
abbrev layer (H : FVec Ideal S100000x128 .f32) (b : (⟨Cert.ReferenceIdeal.S128, .f32⟩ : BufTy).Contents (Elt Ideal)) :
    FVec Ideal S100000x128 .f32 :=
  maximumf (addf H (Cert.ReferenceIdeal.Read.val_main_v19 (F := Ideal) b)) (Cert.ReferenceIdeal.Read.val_main_call0_v0 (F := Ideal))

/-! ## From the blocks to the array -/

variable (V : (c : Dev nD) → (b : Ref sig .tc) → Buf (Elt Ideal) ((c : Thread nD τ).loc b))

/-- The aggregated messages and the staged bias row as the region finds them, at their literal types. -/
abbrev hArr (c : Dev nD) : Vec Ideal S100000x128 .f32 := V c main_v17
abbrev bArr (c : Dev nD) : Vec Ideal S1x128 .f32 := V c main_v18

theorem zero_offsets : (![0, 0] : Fin 2 → Nat) = fun _ => 0 := funext fun a => by fin_cases a <;> rfl

/-- The launch's index maps over its 50 points: input and result sit on the same row block and span all columns; the
    bias row is one block. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- WHAT POINT `t` WRITES BACK is block `t` of `max (H + b1) 0` over the whole arrays, the bias row being the
    reshaped bias vector `b`. -/
theorem written_back (c : Dev nD) (b : (⟨Cert.ReferenceIdeal.S128, .f32⟩ : BufTy).Contents (Elt Ideal))
    (hb : bArr V c = shapeCast S1x128 b shapeCasts_S128_S1x128) (t : Fin cfg1.N) :
    (dat1 V c).flushed 2 t = ((cfg1.win 2).blk t).view.read (Elt Ideal)
      (layer (hArr V c) b) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S1x128) zero_offsets]
  obtain ⟨e0, e1, e2, e3, e4, e5⟩ := block_indices t
  funext j
  show k1_pay1 (F := Ideal) (iblk1 V c 0 t) (iblk1 V c 1 t) j
    = max (hArr V c (((cfg1.win 2).blk t).view.emb j) + Cert.ReferenceIdeal.Read.val_main_v19 (F := Ideal) b (((cfg1.win 2).blk t).view.emb j))
        (Cert.ReferenceIdeal.Read.val_main_call0_v0 (F := Ideal) (((cfg1.win 2).blk t).view.emb j))
  refine (stored_apply (iblk1 V c 0 t) (iblk1 V c 1 t) j).trans ?_
  rw [Cert.ReferenceIdeal.Read.val_main_v19_apply, Cert.ReferenceIdeal.Read.val_main_v18_apply,
    Cert.ReferenceIdeal.Read.val_main_call0_v0_apply, Cert.ReferenceIdeal.Read.val_main_call0_cst_apply]
  have hx : ((cfg1.win 0).blk t).view.emb j = ((cfg1.win 2).blk t).view.emb j := by
    funext a; apply Fin.ext
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 128 + 1 * (j 1).val = win1_2.index t (1 : Fin 2) * 128 + 1 * (j 1).val; omega
  have hbias : bArr V c (((cfg1.win 1).blk t).view.emb (biasAt j))
      = b (Cert.ReferenceIdeal.Read.idx_main_v18 (Cert.ReferenceIdeal.Read.idx_main_v19 (((cfg1.win 2).blk t).view.emb j))) := by
    rw [hb]
    refine shapeCast_apply b shapeCasts_S128_S1x128 _ _ ?_
    rw [Shape.rowMajor_val_two, Shape.rowMajor_val_one]
    show win1_2.index t (1 : Fin 2) * 128 + 1 * (j 1).val
      = (win1_1.index t (0 : Fin 2) * 1 + 1 * 0) * 128 + (win1_1.index t (1 : Fin 2) * 128 + 1 * (j 1).val)
    omega
  show max (hArr V c (((cfg1.win 0).blk t).view.emb j) + bArr V c (((cfg1.win 1).blk t).view.emb (biasAt j))) _ = _
  rw [hx, hbias]
  rfl

/-- An index of the result array lies in point `t`'s block iff each coordinate is in the block's range. -/
theorem in_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v19).slice (win1_2.rect t)).set ↔ _
  rw [View.set_slice_whole, Rect.mem_set_unit]
  exact Iff.rfl

/-- Row `r` of the result is written by point `r / 2000`. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨e0, e1, e2, e3, e4, e5⟩ := block_indices t
  have e5' : win1_2.index t (0 : Fin 2) = (i 0).val / 2000 := e5
  refine ⟨t, flush1_2 t, ?_⟩
  rw [in_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- THE ARRAY the second launch leaves: the reference's `max (H + b1) 0` of the aggregated messages it found and
    the bias vector whose reshaping it found staged. -/
theorem result (c : Dev nD) (b : (⟨Cert.ReferenceIdeal.S128, .f32⟩ : BufTy).Contents (Elt Ideal))
    (hb : bArr V c = shapeCast S1x128 b shapeCasts_S128_S1x128) :
    (dat1 V c).arrAt 2 cfg1.N
      = layer (hArr V c) b :=
  (dat1 V c).arrAt_eq_of_cover 2 _ (fun t _ => written_back V c b hb t) covered

end Cert.KernelIdeal.HiddenLayer

end
-- ==== Proof.SecondProduct.lean ====
/-
  The second dense product. The kernel's third launch walks the 50 row blocks of the hidden activations (2000 rows each),
  multiplies each by the whole of `W2` on the matrix unit into a zero accumulator, and writes the block of the result
  back. At the ideal values the narrowing to bf16 is the identity and the matrix product is the plain sum over the 128
  contracted columns, so row `r = 2000·t + p` of the result is `∑ k, h[r, k] · W2[k, q]`: block `t` of the reference's
  `dot_general` of the whole arrays, which at the ideal values is the same sum (read here off its dimension record for
  any two arrays). The 50 blocks tile the 100000 rows.
-/
import proofs.«129737_j3959959847143_1_alg».proof.Proof.Gen.KernelIdeal.Frame
import proofs.«129737_j3959959847143_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.SecondProduct

open Cert.KernelIdeal Cert.KernelIdeal.Gen Idealize.ShloMosaic Idealize.ShloMosaic.TcCoe Idealize.SL.Sem
open Idealize.ShloMosaic.Pipeline (Dat)

/-- The matrix unit's dimension record of the third launch. -/
abbrev D := dot_S2000x128_S128x64_S2000x64_1_0_0_1_n_n

/-- Row axis of the left operand: the output's row. -/
theorem lhs_0 (j : S2000x64.Idx) (q : D.contr.Idx) : (D.lhsIdx j q 0).val = (j 0).val := by
  unfold DotDims.lhsIdx
  rw [dif_neg (show ¬(0 : Fin S2000x128.rank) ∈ D.lhsBatch by decide), dif_pos (show (0 : Fin S2000x128.rank) ∈ D.lhsNonContracting by decide)]
  rfl
/-- Column axis of the left operand: the contracted index. -/
theorem lhs_1 (j : S2000x64.Idx) (q : D.contr.Idx) : (D.lhsIdx j q 1).val = (q ⟨0, by decide⟩).val :=
  D.lhsIdx_val_of_single rfl j q
/-- Row axis of the right operand: the contracted index. -/
theorem rhs_0 (j : S2000x64.Idx) (q : D.contr.Idx) : (D.rhsIdx j q 0).val = (q ⟨0, by decide⟩).val :=
  D.rhsIdx_val_of_single rfl j q
/-- Column axis of the right operand: the output's column. -/
theorem rhs_1 (j : S2000x64.Idx) (q : D.contr.Idx) : (D.rhsIdx j q 1).val = (j 1).val := by
  unfold DotDims.rhsIdx
  rw [dif_neg (show ¬(1 : Fin S128x64.rank) ∈ D.rhsBatch by decide), dif_pos (show (1 : Fin S128x64.rank) ∈ D.rhsNonContracting by decide)]
  rfl

/-- Entry `(row of j, k)` of a block of the activations. -/
abbrev hAt (j : S2000x64.Idx) (k : Fin 128) : S2000x128.Idx := fun a => match a with
  | ⟨0, _⟩ => ⟨(j 0).val, (j 0).isLt⟩
  | ⟨1, _⟩ => ⟨k.val, k.isLt⟩
/-- Entry `(k, column of j)` of `W2`. -/
abbrev wAt (j : S2000x64.Idx) (k : Fin 128) : S128x64.Idx := fun a => match a with
  | ⟨0, _⟩ => ⟨k.val, k.isLt⟩
  | ⟨1, _⟩ => ⟨(j 1).val, (j 1).isLt⟩

/-- What the body stores, entry by entry, at the ideal values: the row of the loaded block against the column of `W2`,
    summed over the 128 contracted positions. -/
theorem stored_apply (x : Vec Ideal S2000x128 .f32) (w : Vec Ideal S128x64 .f32) (j : S2000x64.Idx) :
    k2_pay1 (F := Ideal) x w j = ∑ k : Fin 128, x (hAt j k) * w (wAt j k) := by
  unfold k2_pay1
  simp only [shapeCast_self, matmul]
  rw [Ideal.matmul_constant_zero_apply, ← Equiv.sum_comp (ValueIdx.contrEquiv1 D 128 rfl rfl).symm]
  refine Finset.sum_congr rfl fun k _ => ?_
  have hk := ValueIdx.contrEquiv1_symm_val D 128 rfl rfl k
  have el : D.lhsIdx j ((ValueIdx.contrEquiv1 D 128 rfl rfl).symm k) = hAt j k := funext fun a => Fin.ext (by
    match a with
    | ⟨0, _⟩ => exact lhs_0 _ _
    | ⟨1, _⟩ => exact (lhs_1 _ _).trans hk)
  have er : D.rhsIdx j ((ValueIdx.contrEquiv1 D 128 rfl rfl).symm k) = wAt j k := funext fun a => Fin.ext (by
    match a with
    | ⟨0, _⟩ => exact (rhs_0 _ _).trans hk
    | ⟨1, _⟩ => exact rhs_1 _ _)
  rw [el, er]
  rfl

/-! ## The reference's product on whole arrays -/

/-- The reference's dimension record of the same product on the whole arrays. -/
abbrev RD := Cert.ReferenceIdeal.dot_S100000x128_S128x64_S100000x64_1_0_0_1_n_n

/-- The reference's second product of whole arrays: the host's `dot_general`. -/
def product (H : FVec Ideal Cert.ReferenceIdeal.S100000x128 .f32) (W : FVec Ideal Cert.ReferenceIdeal.S128x64 .f32) :
    FVec Ideal Cert.ReferenceIdeal.S100000x64 .f32 :=
  Host.dotGeneral (F := Ideal) RD none H W

/-- At the ideal values it is the sum over the 128 contracted positions, whatever the two arrays are. -/
theorem product_apply (H : FVec Ideal Cert.ReferenceIdeal.S100000x128 .f32) (W : FVec Ideal Cert.ReferenceIdeal.S128x64 .f32)
    (i : Cert.ReferenceIdeal.S100000x64.Idx) :
    product H W i = ∑ k : Fin 128, H (Cert.ReferenceIdeal.Read.lidx_main_v22 i k) * W (Cert.ReferenceIdeal.Read.ridx_main_v22 i k) := by
  unfold product
  simp only [Host.dotGeneral]
  rw [Ideal.dotGeneral_apply, ← Equiv.sum_comp (ValueIdx.contrEquiv1 RD 128 rfl rfl).symm]
  refine Finset.sum_congr rfl fun k _ => ?_
  have hk := ValueIdx.contrEquiv1_symm_val RD 128 rfl rfl k
  have el : RD.lhsIdx i ((ValueIdx.contrEquiv1 RD 128 rfl rfl).symm k) = Cert.ReferenceIdeal.Read.lidx_main_v22 i k := funext fun a => Fin.ext (by
    match a with
    | ⟨0, _⟩ => exact Cert.ReferenceIdeal.Read.lhs_main_v22_0 _ _
    | ⟨1, _⟩ => exact (Cert.ReferenceIdeal.Read.lhs_main_v22_1 _ _).trans hk)
  have er : RD.rhsIdx i ((ValueIdx.contrEquiv1 RD 128 rfl rfl).symm k) = Cert.ReferenceIdeal.Read.ridx_main_v22 i k := funext fun a => Fin.ext (by
    match a with
    | ⟨0, _⟩ => exact (Cert.ReferenceIdeal.Read.rhs_main_v22_0 _ _).trans hk
    | ⟨1, _⟩ => exact Cert.ReferenceIdeal.Read.rhs_main_v22_1 _ _)
  rw [el, er]

/-- The reference's stage `h · W2` is this product of its hidden layer. -/
theorem stage_eq (x0 : (⟨Cert.ReferenceIdeal.S100000x256, .f32⟩ : BufTy).Contents (Elt Ideal))
    (x1 : (⟨Cert.ReferenceIdeal.S2x1600000, .i32⟩ : BufTy).Contents (Elt Ideal))
    (x2 : (⟨Cert.ReferenceIdeal.S1600000, .f32⟩ : BufTy).Contents (Elt Ideal))
    (x3 : (⟨Cert.ReferenceIdeal.S256x128, .f32⟩ : BufTy).Contents (Elt Ideal))
    (x4 : (⟨Cert.ReferenceIdeal.S128, .f32⟩ : BufTy).Contents (Elt Ideal))
    (x5 : (⟨Cert.ReferenceIdeal.S128x64, .f32⟩ : BufTy).Contents (Elt Ideal)) :
    Cert.ReferenceIdeal.Read.val_main_v22 (F := Ideal) x0 x1 x2 x3 x4 x5
      = product (Cert.ReferenceIdeal.Read.val_main_v21 (F := Ideal) x0 x1 x2 x3 x4) x5 := by
  unfold product Cert.ReferenceIdeal.Read.val_main_v22
  rfl

/-! ## From the blocks to the array -/

variable (V : (c : Dev nD) → (b : Ref sig .tc) → Buf (Elt Ideal) ((c : Thread nD τ).loc b))

/-- The hidden activations and `W2` as the region finds them, at their literal types. -/
abbrev hArr (c : Dev nD) : Vec Ideal S100000x128 .f32 := V c main_v19
abbrev wArr (c : Dev nD) : Vec Ideal S128x64 .f32 := V c main_arg5

theorem zero_offsets : (![0, 0] : Fin 2 → Nat) = fun _ => 0 := funext fun a => by fin_cases a <;> rfl

/-- The launch's index maps over its 50 points: the activations' window and the result window sit on the same row
    block, the activations' window spans all 128 columns, and the `W2` window is the whole of `W2`. -/
theorem block_indices : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- WHAT POINT `t` WRITES BACK is block `t` of the reference's product of the two arrays the region finds. -/
theorem written_back (c : Dev nD) (t : Fin cfg2.N) :
    (dat2 V c).flushed 2 t = ((cfg2.win 2).blk t).view.read (Elt Ideal) (product (hArr V c) (wArr V c)) := by
  generalize hG : product (hArr V c) (wArr V c) = G
  show (cfg2.win 2).cut (grid2.coords t) ((dat2 V c).after 2 t) = _
  rw [after2_2]
  unfold out2_2
  rw [View.canon_unit_zero zero_offsets]
  simp only [View.ld_unit_zero (S := S2000x128) zero_offsets, View.ld_unit_zero (S := S128x64) zero_offsets]
  obtain ⟨e0, e1, e2, e3, e4, e5⟩ := block_indices t
  funext j
  show k2_pay1 (F := Ideal) (iblk2 V c 0 t) (iblk2 V c 1 t) j = G (((cfg2.win 2).blk t).view.emb j)
  subst hG
  refine (stored_apply (iblk2 V c 0 t) (iblk2 V c 1 t) j).trans ?_
  rw [product_apply]
  refine Finset.sum_congr rfl fun k _ => ?_
  have hx : ((cfg2.win 0).blk t).view.emb (hAt j k) = Cert.ReferenceIdeal.Read.lidx_main_v22 (((cfg2.win 2).blk t).view.emb j) k := by
    funext a; apply Fin.ext
    match a with
    | ⟨0, _⟩ => show win2_0.index t (0 : Fin 2) * 2000 + 1 * (j 0).val = win2_2.index t (0 : Fin 2) * 2000 + 1 * (j 0).val; omega
    | ⟨1, _⟩ => show win2_0.index t (1 : Fin 2) * 128 + 1 * k.val = k.val; omega
  have hw : ((cfg2.win 1).blk t).view.emb (wAt j k) = Cert.ReferenceIdeal.Read.ridx_main_v22 (((cfg2.win 2).blk t).view.emb j) k := by
    funext a; apply Fin.ext
    match a with
    | ⟨0, _⟩ => show win2_1.index t (0 : Fin 2) * 128 + 1 * k.val = k.val; omega
    | ⟨1, _⟩ => show win2_1.index t (1 : Fin 2) * 64 + 1 * (j 1).val = win2_2.index t (1 : Fin 2) * 64 + 1 * (j 1).val; omega
  show hArr V c (((cfg2.win 0).blk t).view.emb (hAt j k)) * wArr V c (((cfg2.win 1).blk t).view.emb (wAt j k)) = _
  rw [hx, hw]

/-- An index of the result array lies in point `t`'s block iff each coordinate is in the block's range. -/
theorem in_block (t : Fin cfg2.N) (i : S100000x64.Idx) :
    i ∈ ((cfg2.win 2).blk t).view.set ↔ ∀ a : Fin 2, win2_2.index t a * S2000x64.size a ≤ (i a).val ∧ (i a).val < win2_2.index t a * S2000x64.size a + S2000x64.size a := by
  show i ∈ ((View.whole main_v20).slice (win2_2.rect t)).set ↔ _
  rw [View.set_slice_whole, Rect.mem_set_unit]
  exact Iff.rfl

/-- Row `r` of the result is written by point `r / 2000`. -/
theorem covered (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 50 := N_2
  let t : Fin cfg2.N := ⟨(i 0).val / 2000, by rw [hN]; omega⟩
  obtain ⟨e0, e1, e2, e3, e4, e5⟩ := block_indices t
  have e5' : win2_2.index t (0 : Fin 2) = (i 0).val / 2000 := e5
  refine ⟨t, flush2_2 t, ?_⟩
  rw [in_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 64 ≤ (i 1).val ∧ (i 1).val < win2_2.index t (1 : Fin 2) * 64 + 64; omega

/-- THE ARRAY the third launch leaves: the reference's product of the activations and the `W2` it found. -/
theorem result (c : Dev nD) : (dat2 V c).arrAt 2 cfg2.N = product (hArr V c) (wArr V c) :=
  (dat2 V c).arrAt_eq_of_cover 2 _ (fun t _ => written_back V c t) covered

end Cert.KernelIdeal.SecondProduct

end
-- ==== Proof.OutputBias.lean ====
/-
  The second layer's bias. The kernel's last launch walks the 50 row blocks of the second aggregation (2000 rows each)
  and adds the bias row `b2` — staged as a [1,64] array — to every row. Entry `(r, q)` of the result is
  `O[r, q] + b2[q]`, which is how the reference spells it on the whole array: the bias broadcast along the rows, then
  the sum. The 50 blocks tile the 100000 rows.
-/
import proofs.«129737_j3959959847143_1_alg».proof.Proof.Gen.KernelIdeal.Frame
import proofs.«129737_j3959959847143_1_alg».proof.Proof.Gen.ReferenceIdeal.Read
import Idealize.ShloMosaic.Lib.Pipeline.Value
import Idealize.ShloMosaic.Lib.ValueIdx

set_option maxRecDepth 16384

noncomputable section

namespace Cert.KernelIdeal.OutputBias

open Cert.KernelIdeal Cert.KernelIdeal.Gen Idealize.ShloMosaic Idealize.ShloMosaic.TcCoe Idealize.SL.Sem
open Idealize.ShloMosaic.Pipeline (Dat)

/-- The bias row's entry under column `q` of a block entry `(p, q)`. -/
abbrev biasAt (j : S2000x64.Idx) : S1x64.Idx := fun a => match a with
  | ⟨0, _⟩ => ⟨0, Nat.one_pos⟩
  | ⟨1, _⟩ => ⟨(j 1).val, (j 1).isLt⟩

/-- What the body stores, entry by entry, at the ideal values. -/
theorem stored_apply (x : Vec Ideal S2000x64 .f32) (brow : Vec Ideal S1x64 .f32) (j : S2000x64.Idx) :
    k3_pay1 (F := Ideal) x brow j = x j + brow (biasAt j) := by
  unfold k3_pay1
  simp only [shapeCast_self]
  show x j + broadcastTo S2000x64 brow broadcasts_S1x64_S2000x64 j = _
  rw [broadcastTo_apply brow broadcasts_S1x64_S2000x64 j (biasAt j) (fun a => match a with
    | ⟨0, _⟩ => by show 0 = if (1 : Nat) = 1 then 0 else _; rw [if_pos rfl]
    | ⟨1, _⟩ => by show (j 1).val = if (64 : Nat) = 1 then 0 else (j 1).val; rw [if_neg (by decide)])]

/-- The step on whole arrays, as the reference spells it: the bias broadcast along the rows, then the sum. -/
abbrev biased (O : FVec Ideal S100000x64 .f32) (b : (⟨Cert.ReferenceIdeal.S64, .f32⟩ : BufTy).Contents (Elt Ideal)) :
    FVec Ideal S100000x64 .f32 :=
  addf O (Cert.ReferenceIdeal.Read.val_main_v41 (F := Ideal) b)

/-! ## From the blocks to the array -/

variable (V : (c : Dev nD) → (b : Ref sig .tc) → Buf (Elt Ideal) ((c : Thread nD τ).loc b))

/-- The second aggregation and the staged bias row as the region finds them, at their literal types. -/
abbrev oArr (c : Dev nD) : Vec Ideal S100000x64 .f32 := V c main_v33
abbrev bArr (c : Dev nD) : Vec Ideal S1x64 .f32 := V c main_v34

theorem zero_offsets : (![0, 0] : Fin 2 → Nat) = fun _ => 0 := funext fun a => by fin_cases a <;> rfl

/-- The launch's index maps over its 50 points: input and result sit on the same row block and span all columns; the
    bias row is one block. -/
theorem block_indices : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- WHAT POINT `t` WRITES BACK is block `t` of `O + b2` over the whole arrays, the bias row being the reshaped
    bias vector `b`. -/
theorem written_back (c : Dev nD) (b : (⟨Cert.ReferenceIdeal.S64, .f32⟩ : BufTy).Contents (Elt Ideal))
    (hb : bArr V c = shapeCast S1x64 b shapeCasts_S64_S1x64) (t : Fin cfg3.N) :
    (dat3 V c).flushed 2 t = ((cfg3.win 2).blk t).view.read (Elt Ideal) (biased (oArr V c) b) := by
  show (cfg3.win 2).cut (grid3.coords t) ((dat3 V c).after 2 t) = _
  rw [after3_2]
  unfold out3_2
  rw [View.canon_unit_zero zero_offsets]
  simp only [View.ld_unit_zero (S := S2000x64) zero_offsets, View.ld_unit_zero (S := S1x64) zero_offsets]
  obtain ⟨e0, e1, e2, e3, e4, e5⟩ := block_indices t
  funext j
  show k3_pay1 (F := Ideal) (iblk3 V c 0 t) (iblk3 V c 1 t) j
    = oArr V c (((cfg3.win 2).blk t).view.emb j) + Cert.ReferenceIdeal.Read.val_main_v41 (F := Ideal) b (((cfg3.win 2).blk t).view.emb j)
  refine (stored_apply (iblk3 V c 0 t) (iblk3 V c 1 t) j).trans ?_
  rw [Cert.ReferenceIdeal.Read.val_main_v41_apply, Cert.ReferenceIdeal.Read.val_main_v40_apply]
  have hx : ((cfg3.win 0).blk t).view.emb j = ((cfg3.win 2).blk t).view.emb j := by
    funext a; apply Fin.ext
    match a with
    | ⟨0, _⟩ => show win3_0.index t (0 : Fin 2) * 2000 + 1 * (j 0).val = win3_2.index t (0 : Fin 2) * 2000 + 1 * (j 0).val; omega
    | ⟨1, _⟩ => show win3_0.index t (1 : Fin 2) * 64 + 1 * (j 1).val = win3_2.index t (1 : Fin 2) * 64 + 1 * (j 1).val; omega
  have hbias : bArr V c (((cfg3.win 1).blk t).view.emb (biasAt j))
      = b (Cert.ReferenceIdeal.Read.idx_main_v40 (Cert.ReferenceIdeal.Read.idx_main_v41 (((cfg3.win 2).blk t).view.emb j))) := by
    rw [hb]
    refine shapeCast_apply b shapeCasts_S64_S1x64 _ _ ?_
    rw [Shape.rowMajor_val_two, Shape.rowMajor_val_one]
    show win3_2.index t (1 : Fin 2) * 64 + 1 * (j 1).val
      = (win3_1.index t (0 : Fin 2) * 1 + 1 * 0) * 64 + (win3_1.index t (1 : Fin 2) * 64 + 1 * (j 1).val)
    omega
  show oArr V c (((cfg3.win 0).blk t).view.emb j) + bArr V c (((cfg3.win 1).blk t).view.emb (biasAt j)) = _
  rw [hx, hbias]

/-- An index of the result array lies in point `t`'s block iff each coordinate is in the block's range. -/
theorem in_block (t : Fin cfg3.N) (i : S100000x64.Idx) :
    i ∈ ((cfg3.win 2).blk t).view.set ↔ ∀ a : Fin 2, win3_2.index t a * S2000x64.size a ≤ (i a).val ∧ (i a).val < win3_2.index t a * S2000x64.size a + S2000x64.size a := by
  show i ∈ ((View.whole main_v35).slice (win3_2.rect t)).set ↔ _
  rw [View.set_slice_whole, Rect.mem_set_unit]
  exact Iff.rfl

/-- Row `r` of the result is written by point `r / 2000`. -/
theorem covered (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 50 := N_3
  let t : Fin cfg3.N := ⟨(i 0).val / 2000, by rw [hN]; omega⟩
  obtain ⟨e0, e1, e2, e3, e4, e5⟩ := block_indices t
  have e5' : win3_2.index t (0 : Fin 2) = (i 0).val / 2000 := e5
  refine ⟨t, flush3_2 t, ?_⟩
  rw [in_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 64 ≤ (i 1).val ∧ (i 1).val < win3_2.index t (1 : Fin 2) * 64 + 64; omega

/-- THE ARRAY the last launch leaves: the reference's `O + b2` of the aggregation it found and the bias vector whose
    reshaping it found staged. -/
theorem result (c : Dev nD) (b : (⟨Cert.ReferenceIdeal.S64, .f32⟩ : BufTy).Contents (Elt Ideal))
    (hb : bArr V c = shapeCast S1x64 b shapeCasts_S64_S1x64) :
    (dat3 V c).arrAt 2 cfg3.N = biased (oArr V c) b :=
  (dat3 V c).arrAt_eq_of_cover 2 _ (fun t _ => written_back V c b hb t) covered

end Cert.KernelIdeal.OutputBias

end
-- ==== Proof.KernelResult.lean ====
/-
  The kernel program's result as one function of its arguments. Between the launch memory and the return the program's
  buffers pass seven boundaries: the index rows are sliced out of `edge_index`; the first launch leaves `x · W1`; the
  host gathers its rows at the source nodes, weighs them and adds them up at the target nodes, and reshapes the first
  bias; the second launch leaves the rectified biased sum; the third its product with `W2`; the host aggregates again
  and reshapes the second bias; the last launch adds it. Each launch's array is the reference's stage of the arrays it
  found (the four modules imported here), each host stretch applies the very operations the reference applies, and a
  buffer nothing writes in between keeps its contents: so the returned array is the reference's composed term of the
  seven arguments.
-/
import proofs.«129737_j3959959847143_1_alg».proof.Proof.FirstProduct
import proofs.«129737_j3959959847143_1_alg».proof.Proof.HiddenLayer
import proofs.«129737_j3959959847143_1_alg».proof.Proof.SecondProduct
import proofs.«129737_j3959959847143_1_alg».proof.Proof.OutputBias
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments, at the reference's literal types -/

abbrev x : (⟨Cert.ReferenceIdeal.S100000x256, .f32⟩ : BufTy).Contents (Elt Ideal) := m ((c : Thread nD τ).loc main_arg0)
abbrev edges : (⟨Cert.ReferenceIdeal.S2x1600000, .i32⟩ : BufTy).Contents (Elt Ideal) := m ((c : Thread nD τ).loc main_arg1)
abbrev weights : (⟨Cert.ReferenceIdeal.S1600000, .f32⟩ : BufTy).Contents (Elt Ideal) := m ((c : Thread nD τ).loc main_arg2)
abbrev w1 : (⟨Cert.ReferenceIdeal.S256x128, .f32⟩ : BufTy).Contents (Elt Ideal) := m ((c : Thread nD τ).loc main_arg3)
abbrev b1 : (⟨Cert.ReferenceIdeal.S128, .f32⟩ : BufTy).Contents (Elt Ideal) := m ((c : Thread nD τ).loc main_arg4)
abbrev w2 : (⟨Cert.ReferenceIdeal.S128x64, .f32⟩ : BufTy).Contents (Elt Ideal) := m ((c : Thread nD τ).loc main_arg5)
abbrev b2 : (⟨Cert.ReferenceIdeal.S64, .f32⟩ : BufTy).Contents (Elt Ideal) := m ((c : Thread nD τ).loc main_arg6)

/-! ## After the first host stretch: the two index rows; the arguments untouched -/

theorem targets_1 : W1 m ρ c (Proc.devRef .tc main_v1) = Cert.ReferenceIdeal.Read.val_main_v2 (F := Ideal) (edges m c) := by
  show StableHlo.after hostOps0 (W0 m ρ c) (Proc.devRef .tc main_v1) = _
  after_results
  rfl
theorem sources_1 : W1 m ρ c (Proc.devRef .tc main_v3) = Cert.ReferenceIdeal.Read.val_main_v4 (F := Ideal) (edges m c) := by
  show StableHlo.after hostOps0 (W0 m ρ c) (Proc.devRef .tc main_v3) = _
  after_results
  rfl
theorem x_1 : W1 m ρ c (Proc.devRef .tc main_arg0) = x m c := by
  show StableHlo.after hostOps0 (W0 m ρ c) (Proc.devRef .tc main_arg0) = _
  after_results
theorem weights_1 : W1 m ρ c (Proc.devRef .tc main_arg2) = weights m c := by
  show StableHlo.after hostOps0 (W0 m ρ c) (Proc.devRef .tc main_arg2) = _
  after_results
theorem w1_1 : W1 m ρ c (Proc.devRef .tc main_arg3) = w1 m c := by
  show StableHlo.after hostOps0 (W0 m ρ c) (Proc.devRef .tc main_arg3) = _
  after_results
theorem b1_1 : W1 m ρ c (Proc.devRef .tc main_arg4) = b1 m c := by
  show StableHlo.after hostOps0 (W0 m ρ c) (Proc.devRef .tc main_arg4) = _
  after_results
theorem w2_1 : W1 m ρ c (Proc.devRef .tc main_arg5) = w2 m c := by
  show StableHlo.after hostOps0 (W0 m ρ c) (Proc.devRef .tc main_arg5) = _
  after_results
theorem b2_1 : W1 m ρ c (Proc.devRef .tc main_arg6) = b2 m c := by
  show StableHlo.after hostOps0 (W0 m ρ c) (Proc.devRef .tc main_arg6) = _
  after_results

/-! ## After the first launch: `x · W1`; everything else as before -/

theorem support1_2 : W2 m ρ c (Proc.devRef .tc main_v4) = Cert.ReferenceIdeal.Read.val_main_v0 (F := Ideal) (x m c) (w1 m c) := by
  refine (W2_arr m ρ c 2).trans ?_
  refine (FirstProduct.result (V1 m ρ) c).trans ?_
  show Cert.ReferenceIdeal.Read.val_main_v0 (F := Ideal) (W1 m ρ c (Proc.devRef .tc main_arg0)) (W1 m ρ c (Proc.devRef .tc main_arg3)) = _
  rw [x_1, w1_1]
theorem targets_2 : W2 m ρ c (Proc.devRef .tc main_v1) = Cert.ReferenceIdeal.Read.val_main_v2 (F := Ideal) (edges m c) :=
  (W2_of_ne m ρ c main_v1 (by decide)).trans (targets_1 m ρ c)
theorem sources_2 : W2 m ρ c (Proc.devRef .tc main_v3) = Cert.ReferenceIdeal.Read.val_main_v4 (F := Ideal) (edges m c) :=
  (W2_of_ne m ρ c main_v3 (by decide)).trans (sources_1 m ρ c)
theorem weights_2 : W2 m ρ c (Proc.devRef .tc main_arg2) = weights m c :=
  (W2_of_ne m ρ c main_arg2 (by decide)).trans (weights_1 m ρ c)
theorem b1_2 : W2 m ρ c (Proc.devRef .tc main_arg4) = b1 m c :=
  (W2_of_ne m ρ c main_arg4 (by decide)).trans (b1_1 m ρ c)
theorem w2_2 : W2 m ρ c (Proc.devRef .tc main_arg5) = w2 m c :=
  (W2_of_ne m ρ c main_arg5 (by decide)).trans (w2_1 m ρ c)
theorem b2_2 : W2 m ρ c (Proc.devRef .tc main_arg6) = b2 m c :=
  (W2_of_ne m ρ c main_arg6 (by decide)).trans (b2_1 m ρ c)

/-! ## After the second host stretch: the first aggregation and the reshaped first bias -/

set_option maxHeartbeats 2000000 in
theorem aggregated1_3 : W3 m ρ c (Proc.devRef .tc main_v17)
    = Cert.ReferenceIdeal.Read.val_main_v17 (F := Ideal) (x m c) (edges m c) (weights m c) (w1 m c) := by
  show StableHlo.after hostOps1 (W2 m ρ c) (Proc.devRef .tc main_v17) = _
  after_results
  rw [targets_2, sources_2, weights_2, support1_2]
  simp only [Cert.ReferenceIdeal.Read.val_main_v17, Cert.ReferenceIdeal.Read.val_main_v16, Cert.ReferenceIdeal.Read.val_main_v15, Cert.ReferenceIdeal.Read.val_main_cst, Cert.ReferenceIdeal.Read.val_main_v14, Cert.ReferenceIdeal.Read.val_main_v13, Cert.ReferenceIdeal.Read.val_main_v5, Cert.ReferenceIdeal.Read.val_main_v12, Cert.ReferenceIdeal.Read.val_main_v11, Cert.ReferenceIdeal.Read.val_main_v10, Cert.ReferenceIdeal.Read.val_main_v9, Cert.ReferenceIdeal.Read.val_main_v8, Cert.ReferenceIdeal.Read.val_main_c_0, Cert.ReferenceIdeal.Read.val_main_v7, Cert.ReferenceIdeal.Read.val_main_v6, Cert.ReferenceIdeal.Read.val_main_c]
  rfl
theorem biasrow1_3 : W3 m ρ c (Proc.devRef .tc main_v18) = shapeCast S1x128 (b1 m c) shapeCasts_S128_S1x128 := by
  show StableHlo.after hostOps1 (W2 m ρ c) (Proc.devRef .tc main_v18) = _
  after_results
  rw [b1_2]
  rfl
theorem targets_3 : W3 m ρ c (Proc.devRef .tc main_v1) = Cert.ReferenceIdeal.Read.val_main_v2 (F := Ideal) (edges m c) := by
  refine Eq.trans ?_ (targets_2 m ρ c)
  show StableHlo.after hostOps1 (W2 m ρ c) (Proc.devRef .tc main_v1) = _
  after_results
theorem sources_3 : W3 m ρ c (Proc.devRef .tc main_v3) = Cert.ReferenceIdeal.Read.val_main_v4 (F := Ideal) (edges m c) := by
  refine Eq.trans ?_ (sources_2 m ρ c)
  show StableHlo.after hostOps1 (W2 m ρ c) (Proc.devRef .tc main_v3) = _
  after_results
theorem weights_3 : W3 m ρ c (Proc.devRef .tc main_arg2) = weights m c := by
  refine Eq.trans ?_ (weights_2 m ρ c)
  show StableHlo.after hostOps1 (W2 m ρ c) (Proc.devRef .tc main_arg2) = _
  after_results
theorem w2_3 : W3 m ρ c (Proc.devRef .tc main_arg5) = w2 m c := by
  refine Eq.trans ?_ (w2_2 m ρ c)
  show StableHlo.after hostOps1 (W2 m ρ c) (Proc.devRef .tc main_arg5) = _
  after_results
theorem b2_3 : W3 m ρ c (Proc.devRef .tc main_arg6) = b2 m c := by
  refine Eq.trans ?_ (b2_2 m ρ c)
  show StableHlo.after hostOps1 (W2 m ρ c) (Proc.devRef .tc main_arg6) = _
  after_results

/-! ## After the second launch: the hidden layer -/

theorem hidden_4 : W4 m ρ c (Proc.devRef .tc main_v19)
    = Cert.ReferenceIdeal.Read.val_main_v21 (F := Ideal) (x m c) (edges m c) (weights m c) (w1 m c) (b1 m c) := by
  refine (W4_arr m ρ c 2).trans ?_
  refine (HiddenLayer.result (V3 m ρ) c (b1 m c) (biasrow1_3 m ρ c)).trans ?_
  show HiddenLayer.layer (W3 m ρ c (Proc.devRef .tc main_v17)) (b1 m c) = _
  rw [aggregated1_3]
  simp only [Cert.ReferenceIdeal.Read.val_main_v21, Cert.ReferenceIdeal.Read.val_main_v20]
theorem targets_4 : W4 m ρ c (Proc.devRef .tc main_v1) = Cert.ReferenceIdeal.Read.val_main_v2 (F := Ideal) (edges m c) :=
  (W4_of_ne m ρ c main_v1 (by decide)).trans (targets_3 m ρ c)
theorem sources_4 : W4 m ρ c (Proc.devRef .tc main_v3) = Cert.ReferenceIdeal.Read.val_main_v4 (F := Ideal) (edges m c) :=
  (W4_of_ne m ρ c main_v3 (by decide)).trans (sources_3 m ρ c)
theorem weights_4 : W4 m ρ c (Proc.devRef .tc main_arg2) = weights m c :=
  (W4_of_ne m ρ c main_arg2 (by decide)).trans (weights_3 m ρ c)
theorem w2_4 : W4 m ρ c (Proc.devRef .tc main_arg5) = w2 m c :=
  (W4_of_ne m ρ c main_arg5 (by decide)).trans (w2_3 m ρ c)
theorem b2_4 : W4 m ρ c (Proc.devRef .tc main_arg6) = b2 m c :=
  (W4_of_ne m ρ c main_arg6 (by decide)).trans (b2_3 m ρ c)

/-! ## After the third launch: its product with `W2` -/

theorem support2_5 : W5 m ρ c (Proc.devRef .tc main_v20)
    = Cert.ReferenceIdeal.Read.val_main_v22 (F := Ideal) (x m c) (edges m c) (weights m c) (w1 m c) (b1 m c) (w2 m c) := by
  refine (W5_arr m ρ c 2).trans ?_
  refine (SecondProduct.result (V4 m ρ) c).trans ?_
  show SecondProduct.product (W4 m ρ c (Proc.devRef .tc main_v19)) (W4 m ρ c (Proc.devRef .tc main_arg5)) = _
  rw [hidden_4, w2_4]
  exact (SecondProduct.stage_eq _ _ _ _ _ _).symm
theorem targets_5 : W5 m ρ c (Proc.devRef .tc main_v1) = Cert.ReferenceIdeal.Read.val_main_v2 (F := Ideal) (edges m c) :=
  (W5_of_ne m ρ c main_v1 (by decide)).trans (targets_4 m ρ c)
theorem sources_5 : W5 m ρ c (Proc.devRef .tc main_v3) = Cert.ReferenceIdeal.Read.val_main_v4 (F := Ideal) (edges m c) :=
  (W5_of_ne m ρ c main_v3 (by decide)).trans (sources_4 m ρ c)
theorem weights_5 : W5 m ρ c (Proc.devRef .tc main_arg2) = weights m c :=
  (W5_of_ne m ρ c main_arg2 (by decide)).trans (weights_4 m ρ c)
theorem b2_5 : W5 m ρ c (Proc.devRef .tc main_arg6) = b2 m c :=
  (W5_of_ne m ρ c main_arg6 (by decide)).trans (b2_4 m ρ c)

/-! ## After the third host stretch: the second aggregation and the reshaped second bias -/

set_option maxHeartbeats 2000000 in
theorem aggregated2_6 : W6 m ρ c (Proc.devRef .tc main_v33)
    = Cert.ReferenceIdeal.Read.val_main_v39 (F := Ideal) (x m c) (edges m c) (weights m c) (w1 m c) (b1 m c) (w2 m c) := by
  show StableHlo.after hostOps3 (W5 m ρ c) (Proc.devRef .tc main_v33) = _
  after_results
  rw [targets_5, sources_5, weights_5, support2_5]
  simp only [Cert.ReferenceIdeal.Read.val_main_v39, Cert.ReferenceIdeal.Read.val_main_v38, Cert.ReferenceIdeal.Read.val_main_v37, Cert.ReferenceIdeal.Read.val_main_cst_3, Cert.ReferenceIdeal.Read.val_main_v36, Cert.ReferenceIdeal.Read.val_main_v35, Cert.ReferenceIdeal.Read.val_main_v27, Cert.ReferenceIdeal.Read.val_main_v34, Cert.ReferenceIdeal.Read.val_main_v33, Cert.ReferenceIdeal.Read.val_main_v32, Cert.ReferenceIdeal.Read.val_main_v31, Cert.ReferenceIdeal.Read.val_main_v30, Cert.ReferenceIdeal.Read.val_main_c_2, Cert.ReferenceIdeal.Read.val_main_v29, Cert.ReferenceIdeal.Read.val_main_v28, Cert.ReferenceIdeal.Read.val_main_c_1]
  rfl
theorem biasrow2_6 : W6 m ρ c (Proc.devRef .tc main_v34) = shapeCast S1x64 (b2 m c) shapeCasts_S64_S1x64 := by
  show StableHlo.after hostOps3 (W5 m ρ c) (Proc.devRef .tc main_v34) = _
  after_results
  rw [b2_5]
  rfl

/-! ## After the last launch: the result -/

/-- THE RESULT ARRAY at the return is the reference's composed term of the seven arguments. -/
theorem returned : W7 m ρ c (Proc.devRef .tc main_v35)
    = Cert.ReferenceIdeal.Read.val_main_v42 (F := Ideal) (x m c) (edges m c) (weights m c) (w1 m c) (b1 m c) (w2 m c) (b2 m c) := by
  refine (W7_arr m ρ c 2).trans ?_
  refine (OutputBias.result (V6 m ρ) c (b2 m c) (biasrow2_6 m ρ c)).trans ?_
  show OutputBias.biased (W6 m ρ c (Proc.devRef .tc main_v33)) (b2 m c) = _
  rw [aggregated2_6]
  simp only [Cert.ReferenceIdeal.Read.val_main_v42]

end Cert.KernelIdeal.Result

end
-- ==== Proof.lean ====
/-
  A two-layer graph convolution, `out = A·(relu(A·(x·W1) + b1)·W2) + b2` with `A` the weighted adjacency given as an
  edge list, in four launches (the two dense products and the two bias steps, each tiled over 50 blocks of 2000 nodes)
  with the two sparse aggregations left to the host, against the same network written with `jnp` alone.
  Both programs apply the SAME host operations for the aggregation (index wrap, row gather, weighting, scatter-add), so
  nothing of them is opened. What is proved by hand is that each launch leaves the reference's stage of the arrays it
  found — at the ideal values a matrix-unit product into a zero accumulator is the `dot_general`'s sum, and the
  blockwise bias and rectifier are the whole-array ones read block by block — (Proof/FirstProduct, HiddenLayer,
  SecondProduct, OutputBias), and that these compose along the program's seven boundaries to the reference's term
  (Proof/KernelResult). No algebraic law is needed and the precondition is never opened: the two sides are the same
  sums in the same order. The idealization pass rewrote nothing, so `preserves` is trivial.
-/
import proofs.«129737_j3959959847143_1_alg».proof.Defs
import proofs.«129737_j3959959847143_1_alg».proof.Proof.Gen.Kernel
import proofs.«129737_j3959959847143_1_alg».proof.Proof.Gen.Kernel.Skeleton
import proofs.«129737_j3959959847143_1_alg».proof.Proof.Gen.Kernel.Launch
import proofs.«129737_j3959959847143_1_alg».proof.Proof.Gen.Kernel.Points
import proofs.«129737_j3959959847143_1_alg».proof.Proof.Gen.Kernel.Frame
import proofs.«129737_j3959959847143_1_alg».proof.Proof.Gen.KernelIdeal
import proofs.«129737_j3959959847143_1_alg».proof.Proof.Gen.KernelIdeal.Skeleton
import proofs.«129737_j3959959847143_1_alg».proof.Proof.Gen.KernelIdeal.Launch
import proofs.«129737_j3959959847143_1_alg».proof.Proof.Gen.KernelIdeal.Points
import proofs.«129737_j3959959847143_1_alg».proof.Proof.Gen.KernelIdeal.Frame
import proofs.«129737_j3959959847143_1_alg».proof.Proof.Gen.ReferenceIdeal
import proofs.«129737_j3959959847143_1_alg».proof.Proof.Gen.Pre_finite_inputs
import proofs.«129737_j3959959847143_1_alg».proof.Proof.Gen.ReferenceIdeal.Run
import proofs.«129737_j3959959847143_1_alg».proof.Proof.Gen.ReferenceIdeal.Read
import proofs.«129737_j3959959847143_1_alg».proof.Proof.KernelRun
import proofs.«129737_j3959959847143_1_alg».proof.Proof.KernelResult
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- The idealized kernel runs and keeps its arguments: the generated frame. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the seven arguments both programs end at the reference's composed term of them: the
    kernel's run leaves its result at the fold of its boundaries, which is that term (`Result.returned`); the reference's
    run states it outright. -/
theorem algebraic : Cert.algebraic_KernelIdeal_ReferenceIdeal := by
  intro m ρ m' ρ' _ hagree
  refine ⟨fun c => Cert.ReferenceIdeal.Read.val_main_v42 (F := Ideal) (Cert.KernelIdeal.Result.x m c) (Cert.KernelIdeal.Result.edges m c)
    (Cert.KernelIdeal.Result.weights m c) (Cert.KernelIdeal.Result.w1 m c) (Cert.KernelIdeal.Result.b1 m c)
    (Cert.KernelIdeal.Result.w2 m c) (Cert.KernelIdeal.Result.b2 m c), ?_, ?_⟩
  · exact (θ_run Cert.KernelIdeal.defs _ _).mono
      (fun r h c => ⟨(h c).1.trans (Cert.KernelIdeal.Result.returned m ρ c), (h c).2⟩)
      (Cert.KernelIdeal.ResultRun.run_result m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v42_eq _ _ _ _ _ _ _).trans ?_
    obtain ⟨h0, h1, h2, h3, h4, h5, h6⟩ := hagree c
    rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
